-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x1 .f32) (main_arg11 : FVec F S1 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S1x32 : Shape := ⟨2, ![1, 32]⟩
abbrev S1x1 : Shape := ⟨2, ![1, 1]⟩
abbrev S5000x32 : Shape := ⟨2, ![5000, 32]⟩

abbrev nBuf : Space → Nat
  | .hbm => 60
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000x1, .f32⟩
  | .hbm, ⟨18, _⟩ => ⟨S_, .f32⟩
  | .hbm, ⟨19, _⟩ => ⟨S100000x1, .f32⟩
  | .hbm, ⟨20, _⟩ => ⟨S1600000x1, .i32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64, .f32⟩
  | .hbm, ⟨57, _⟩ => ⟨S1x32, .f32⟩
  | .hbm, ⟨58, _⟩ => ⟨S1x1, .f32⟩
  | .hbm, ⟨59, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S64x32, .f32⟩
  | .local _ .vmem, ⟨21, _⟩ => ⟨S1x32, .f32⟩
  | .local _ .vmem, ⟨22, _⟩ => ⟨S32x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x1.size a ≤ S32x1.size a
  hwx1_8 : ∀ i : grid1.Coords, EltTy.bits .f32 = 32 ∨ (Rect.block (s := S32x1) S32x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S100000x1.size a
  hwx1_10 : ∀ i : grid1.Coords, EltTy.bits .f32 = 32 ∨ (Rect.block (s := S100000x1) S5000x1.size (cc1_transform_10 i) (hinb1_10 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S32x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000x1, .f32⟩
  | .hbm, ⟨31, _⟩ => ⟨S_, .f32⟩
  | .hbm, ⟨32, _⟩ => ⟨S100000x1, .f32⟩
  | .hbm, ⟨33, _⟩ => ⟨S1600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | .hbm, ⟨86, _⟩ => ⟨S_, .f32⟩
  | .hbm, ⟨87, _⟩ => ⟨S100000x32, .f32⟩
  | .hbm, ⟨88, _⟩ => ⟨S100000x32, .f32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_cst : Ref sig .tc := ⟨.hbm, 86, rfl⟩
abbrev main_call2_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  The network as a function of whole arrays, read at one row.

  A mean-aggregation layer at row r and feature j is
      relu( (Σ_k (agg r k · s r) · Wl k j + b j) + Σ_k x r k · Wr k j ),
  where agg is the sum of the neighbours' features and s the reciprocal of the clamped neighbour count. The head at
  row r is  logistic( Σ_q relu( Σ_j h2 r j · Wf1 j q + bf1 q ) · Wf2 q + bf2 ),  h2 the second layer's output.

  One law joins the two spellings of the mean: for a divisor c = max n 1, which is at least 1 and so never zero,
  a · (1 / c) = a / c on every extended real a, the infinities included. Nothing else about the extended reals is
  needed: both programs form the same sums in the same order.
-/
import Idealize.ShloMosaic.PureOps.Ideal.Laws
import Idealize.ShloMosaic.Lib.ValueIdx
import Idealize.ShloMosaic.Lib.IdealHost

noncomputable section

namespace Cert.Net

open Idealize.ShloMosaic Idealize.ShloMosaic.ValueIdx

/-- An a × b array of extended reals. -/
abbrev Arr (a b : Nat) : Type := (⟨2, ![a, b]⟩ : Shape).Idx → EReal

/-- The clamped count max n 1 is never zero: it is at least 1. -/
theorem clamp_ne_zero (n : EReal) : max n 1 ≠ 0 :=
  ne_of_gt (lt_of_lt_of_le zero_lt_one (le_max_right n 1))

/-- THE LAW: scaling by the reciprocal of the clamped count is dividing by it. -/
theorem mul_recip_clamp (a n : EReal) : a * Ideal.div 1 (max n 1) = Ideal.div a (max n 1) :=
  Ideal.mul_one_div (clamp_ne_zero n)

/-- One mean-aggregation layer at row r, feature j; s holds the per-row scale. -/
def sageAt (agg : Arr 100000 64) (s : Arr 100000 1) (x : Arr 100000 64) (Wl : Arr 64 64) (b : Arr 1 64) (Wr : Arr 64 64)
    (r : Fin 100000) (j : Fin 64) : EReal :=
  max (((∑ k : Fin 64, (agg (ix2 r k) * s (ix2 r 0)) * Wl (ix2 k j)) + b (ix2 0 j))
        + ∑ k : Fin 64, x (ix2 r k) * Wr (ix2 k j)) 0

/-- The layer as a whole array. -/
def sage (agg : Arr 100000 64) (s : Arr 100000 1) (x : Arr 100000 64) (Wl : Arr 64 64) (b : Arr 1 64) (Wr : Arr 64 64) :
    Arr 100000 64 := fun i => sageAt agg s x Wl b Wr (i 0) (i 1)

/-- The hidden unit q of the head at row r, over the second layer's output h2. -/
def mlpAt (h2 : Fin 64 → EReal) (Wf1 : Arr 64 32) (bf1 : Arr 1 32) (q : Fin 32) : EReal :=
  max ((∑ j : Fin 64, h2 j * Wf1 (ix2 j q)) + bf1 (ix2 0 q)) 0

/-- The head at row r: the second layer, the hidden layer, the logit, the logistic. -/
def headAt (agg : Arr 100000 64) (s : Arr 100000 1) (h : Arr 100000 64) (Wl : Arr 64 64) (b : Arr 1 64) (Wr : Arr 64 64)
    (Wf1 : Arr 64 32) (bf1 : Arr 1 32) (Wf2 : Arr 32 1) (bf2 : Arr 1 1) (r : Fin 100000) : EReal :=
  Ideal.logistic ((∑ q : Fin 32, mlpAt (fun j => sageAt agg s h Wl b Wr r j) Wf1 bf1 q * Wf2 (ix2 q 0)) + bf2 (ix2 0 0))

/-- The head as a whole array (one column). -/
def head (agg : Arr 100000 64) (s : Arr 100000 1) (h : Arr 100000 64) (Wl : Arr 64 64) (b : Arr 1 64) (Wr : Arr 64 64)
    (Wf1 : Arr 64 32) (bf1 : Arr 1 32) (Wf2 : Arr 32 1) (bf2 : Arr 1 1) : Arr 100000 1 :=
  fun i => headAt agg s h Wl b Wr Wf1 bf1 Wf2 bf2 (i 0)

/-- The layer with the mean spelt as a quotient by the clamped count n: the reference's spelling. -/
theorem sageAt_recip (agg : Arr 100000 64) (n : Arr 100000 1) (x : Arr 100000 64) (Wl : Arr 64 64) (b : Arr 1 64)
    (Wr : Arr 64 64) (r : Fin 100000) (j : Fin 64) :
    sageAt agg (fun i => Ideal.div 1 (max (n i) 1)) x Wl b Wr r j
      = max (((∑ k : Fin 64, Ideal.div (agg (ix2 r k)) (max (n (ix2 r 0)) 1) * Wl (ix2 k j)) + b (ix2 0 j))
            + ∑ k : Fin 64, x (ix2 r k) * Wr (ix2 k j)) 0 := by
  unfold sageAt
  simp only [mul_recip_clamp]

end Cert.Net

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Layer1.lean ====
/-
  The first kernel region: one mean-aggregation layer, tiled over rows.

  The region runs 20 grid points; point t loads rows t·5000 … t·5000+4999 of the aggregated features, of the per-row
  scale and of the node features, the two 64×64 weight matrices and the bias row whole, and stores
      relu( (agg · s) W_l + b + x W_r )
  for those rows. Read at block entry (p, q) the stored value is
      max( (Σ_k (agg(p,k) · s(p,0)) · W_l(k,q) + b(0,q)) + Σ_k x(p,k) · W_r(k,q), 0 ):
  the roundings to the narrow format are the identity on the extended reals and each product into a zero
  accumulator is its plain sum. Block t's entry (p, q) is the array's entry (t·5000 + p, q) for the three row-tiled
  operands and the output, and the weights' own entry for the rest; the 20 blocks cover all 100000 rows (row r lies in
  block r / 5000). So the output array is the layer of the arrays the region finds, whatever those are.
-/
import proofs.«132148_j58016418234844_1_alg».proof.Proof.Gen.KernelIdeal.Frame
import proofs.«132148_j58016418234844_1_alg».proof.Proof.Spec
import proofs.«132148_j58016418234844_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem

/-- The printed contraction is the plain M×K by K×N one. -/
theorem dot64 : dot_S5000x64_S64x64_S5000x64_1_0_0_1_n_n = DotDims.plain 5000 64 64 := rfl

/-- A column broadcast along the rows reads its row's entry. -/
theorem col_bcast (s : FVec Ideal S5000x1 .f32) (p : Fin 5000) (q : Fin 64) :
    broadcastTo S5000x64 s broadcasts_S5000x1_S5000x64 (ix2 p q) = s (ix2 p 0) :=
  broadcastTo_apply s broadcasts_S5000x1_S5000x64 (ix2 p q) (ix2 p 0) (fun a => by
    match a with
    | ⟨0, _⟩ => rfl
    | ⟨1, _⟩ => rfl)

/-- A row broadcast down the columns reads its column's entry. -/
theorem row_bcast (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-- THE STORED VALUE AT (p, q), over any loaded blocks. -/
theorem pay_apply (a : Vec Ideal S5000x64 .f32) (s : Vec Ideal S5000x1 .f32) (x : Vec Ideal S5000x64 .f32)
    (wl wr : Vec Ideal S64x64 .f32) (b : Vec Ideal S1x64 .f32) (p : Fin 5000) (q : Fin 64) :
    k0_pay1 (F := Ideal) a s x wl wr b (ix2 p q)
      = max (((∑ k : Fin 64, (a (ix2 p k) * s (ix2 p 0)) * wl (ix2 k q)) + b (ix2 0 q))
            + ∑ k : Fin 64, x (ix2 p k) * wr (ix2 k q)) 0 := by
  unfold k0_pay1
  simp only [shapeCast_self]
  simp only [matmul]
  rw [maximumf_apply, addf_apply, addf_apply, dot64, Cert.Matmul.matmul_plain_apply, Cert.Matmul.matmul_plain_apply,
    row_bcast, broadcast_apply]
  simp only [truncf_apply, mulf_apply, col_bcast, Ideal.ofBits_def, Ideal.ofBits_zero_f32]

/-! ## Blocks of the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-tiled windows and the output sit at block row t, block
    column 0; the weights and the bias are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row t · 5000 + p of the array. -/
def row (t : Fin cfg0.N) (p : Fin 5000) : Fin 100000 :=
  ⟨t.val * 5000 + p.val, by have ht : t.val < 20 := t.isLt; have hp := p.isLt; omega⟩

/-- Each window's block at point t, read at block coordinates, is the array at row t · 5000 + p (the row-tiled
    operands) or at the same entry (the weights and the bias). -/
theorem blk_agg (c : Dev nD) (t : Fin cfg0.N) (p : Fin 5000) (k : Fin 64) :
    iblk0 V c 0 t (ix2 p k) = V c main_v21 (ix2 (row t p) k) := by
  obtain ⟨e00, e01, -⟩ := idx_facts t
  show V c main_v21 (((cfg0.win 0).blk t).view.emb (ix2 p k)) = V c main_v21 (ix2 (row t p) k)
  refine congrArg (V c main_v21) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem blk_inv (c : Dev nD) (t : Fin cfg0.N) (p : Fin 5000) :
    iblk0 V c 1 t (ix2 p 0) = V c main_v11 (ix2 (row t p) 0) := by
  obtain ⟨-, -, e10, e11, -⟩ := idx_facts t
  show V c main_v11 (((cfg0.win 1).blk t).view.emb (ix2 p 0)) = V c main_v11 (ix2 (row t p) 0)
  refine congrArg (V c main_v11) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem blk_x (c : Dev nD) (t : Fin cfg0.N) (p : Fin 5000) (k : Fin 64) :
    iblk0 V c 2 t (ix2 p k) = V c main_arg0 (ix2 (row t p) k) := by
  obtain ⟨-, -, -, -, e20, e21, -⟩ := idx_facts t
  show V c main_arg0 (((cfg0.win 2).blk t).view.emb (ix2 p k)) = V c main_arg0 (ix2 (row t p) k)
  refine congrArg (V c main_arg0) (funext fun a => Fin.ext ?_)
  match a with
  | ⟨0, _⟩ => show win0_2.index t (0 : Fin 2) * 5000 + 1 * p.val = t.val * 5000 + p.val; omega
  | ⟨1, _⟩ => show win0_2.index t (1 : Fin 2) * 64 + 1 * k.val = k.val; omega

theorem blk_wl (c : Dev nD) (t : Fin cfg0.N) (k q : Fin 64) :
    iblk0 V c 3 t (ix2 k q) = V c main_arg2 (ix2 k q) := by
  obtain ⟨-, -, -, -, -, -, e30, e31, -⟩ := idx_facts t
  show V c main_arg2 (((cfg0.win 3).blk t).view.emb (ix2 k q)) = V c main_arg2 (ix2 k q)
  refine congrArg (V c main_arg2) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem blk_b (c : Dev nD) (t : Fin cfg0.N) (q : Fin 64) :
    iblk0 V c 4 t (ix2 0 q) = V c main_v22 (ix2 0 q) := by
  obtain ⟨-, -, -, -, -, -, -, -, e40, e41, -⟩ := idx_facts t
  show V c main_v22 (((cfg0.win 4).blk t).view.emb (ix2 0 q)) = V c main_v22 (ix2 0 q)
  refine congrArg (V c main_v22) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

theorem blk_wr (c : Dev nD) (t : Fin cfg0.N) (k q : Fin 64) :
    iblk0 V c 5 t (ix2 k q) = V c main_arg4 (ix2 k q) := by
  obtain ⟨-, -, -, -, -, -, -, -, -, -, e50, e51, -⟩ := idx_facts t
  show V c main_arg4 (((cfg0.win 5).blk t).view.emb (ix2 k q)) = V c main_arg4 (ix2 k q)
  refine congrArg (V c main_arg4) (funext fun a => Fin.ext ?_)
  match a with
  | ⟨0, _⟩ => show win0_5.index t (0 : Fin 2) * 64 + 1 * k.val = k.val; omega
  | ⟨1, _⟩ => show win0_5.index t (1 : Fin 2) * 64 + 1 * q.val = q.val; omega

/-- Where the output block's entry (p, q) lands in the array. -/
theorem emb_out (t : Fin cfg0.N) (p : Fin 5000) (q : Fin 64) :
    ((cfg0.win 6).blk t).view.emb (ix2 p q) = ix2 (row t p) q := by
  obtain ⟨-, -, -, -, -, -, -, -, -, -, -, -, e60, e61⟩ := idx_facts t
  refine funext fun a => Fin.ext ?_
  match a with
  | ⟨0, _⟩ => show win0_6.index t (0 : Fin 2) * 5000 + 1 * p.val = t.val * 5000 + p.val; omega
  | ⟨1, _⟩ => show win0_6.index t (1 : Fin 2) * 64 + 1 * q.val = q.val; omega

/-- The layer over the arrays as the region finds them. -/
abbrev G (c : Dev nD) : Net.Arr 100000 64 :=
  Net.sage (V c main_v21) (V c main_v11) (V c main_arg0) (V c main_arg2) (V c main_v22) (V c main_arg4)

/-- WHAT POINT t WRITES BACK is block t of the layer's array. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  refine (pay_apply (iblk0 V c 0 t) (iblk0 V c 1 t) (iblk0 V c 2 t) (iblk0 V c 3 t) (iblk0 V c 5 t) (iblk0 V c 4 t) p q).trans ?_
  simp only [blk_agg, blk_inv, blk_x, blk_wl, blk_b, blk_wr]
  show _ = G V c (((cfg0.win 6).blk t).view.emb (ix2 p q))
  rw [emb_out]
  rfl

/-- An index is in point t's output block iff each coordinate is in the block's range. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v23).slice (win0_6.rect t)).set ↔ _
  rw [View.set_slice_whole, Rect.mem_set_unit]
  exact Iff.rfl

/-- Every row lies in the block of the point r / 5000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 5000 < 20 := by omega
  obtain ⟨-, -, -, -, -, -, -, -, -, -, -, -, e60, e61⟩ := idx_facts ⟨(i 0).val / 5000, ht⟩
  refine ⟨⟨(i 0).val / 5000, ht⟩, flush0_6 _, ?_⟩
  rw [mem_blk]
  intro a
  have e60' : win0_6.index ⟨(i 0).val / 5000, ht⟩ (0 : Fin 2) = (i 0).val / 5000 := e60
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; omega
  | ⟨1, _⟩ => show win0_6.index ⟨(i 0).val / 5000, ht⟩ (1 : Fin 2) * 64 ≤ (i 1).val ∧ (i 1).val < win0_6.index ⟨(i 0).val / 5000, ht⟩ (1 : Fin 2) * 64 + 64; omega

/-- THE FIRST REGION'S OUTPUT ARRAY after its run: the layer of the arrays as the region finds them. -/
theorem out_array (c : Dev nD) : (dat0 V c).arrAt 6 cfg0.N = G V c :=
  (dat0 V c).arrAt_eq_of_cover 6 (G V c) (fun t _ => flushed_eq V c t) (fun i => cover i)

end Cert.KernelIdeal.Layer1

end
-- ==== Proof.Head.lean ====
/-
  The second kernel region: the second mean-aggregation layer and the two-layer head, tiled over rows.

  Point t of 20 loads rows t·5000 … t·5000+4999 of the aggregated hidden features, of the per-row scale and of the
  hidden features, and every weight and bias whole. For those rows it forms the second layer
      h2 = relu( (agg · s) W_l + b + h W_r ),
  the hidden layer  relu( h2 W_f1 + b_f1 ),  the logit  (·) W_f2 + b_f2  and stores its logistic. Read at block row p:
      logistic( Σ_q max( Σ_j h2(p,j) · W_f1(j,q) + b_f1(0,q), 0 ) · W_f2(q,0) + b_f2(0,0) ),
  the roundings to the narrow format being the identity on the extended reals and each product into a zero
  accumulator its plain sum. Block t's row p is the array's row t·5000 + p; the 20 blocks cover all 100000 rows. So the
  output array is the head of the arrays the region finds, whatever those are.
-/
import proofs.«132148_j58016418234844_1_alg».proof.Proof.Gen.KernelIdeal.Frame
import proofs.«132148_j58016418234844_1_alg».proof.Proof.Spec
import proofs.«132148_j58016418234844_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem

/-- The three printed contractions are plain M×K by K×N ones. -/
theorem dot64 : dot_S5000x64_S64x64_S5000x64_1_0_0_1_n_n = DotDims.plain 5000 64 64 := rfl
theorem dot32 : dot_S5000x64_S64x32_S5000x32_1_0_0_1_n_n = DotDims.plain 5000 64 32 := rfl
theorem dot1 : dot_S5000x32_S32x1_S5000x1_1_0_0_1_n_n = DotDims.plain 5000 32 1 := rfl

/-- A column broadcast along the rows reads its row's entry. -/
theorem col_bcast (s : FVec Ideal S5000x1 .f32) (p : Fin 5000) (q : Fin 64) :
    broadcastTo S5000x64 s broadcasts_S5000x1_S5000x64 (ix2 p q) = s (ix2 p 0) :=
  broadcastTo_apply s broadcasts_S5000x1_S5000x64 (ix2 p q) (ix2 p 0) (fun a => by
    match a with
    | ⟨0, _⟩ => rfl
    | ⟨1, _⟩ => rfl)

/-- A row broadcast down the columns reads its column's entry (widths 64, 32 and 1). -/
theorem row_bcast64 (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

theorem row_bcast32 (b : FVec Ideal S1x32 .f32) (p : Fin 5000) (q : Fin 32) :
    broadcastTo S5000x32 b broadcasts_S1x32_S5000x32 (ix2 p q) = b (ix2 0 q) :=
  broadcastTo_apply b broadcasts_S1x32_S5000x32 (ix2 p q) (ix2 0 q) (fun a => by
    match a with
    | ⟨0, _⟩ => rfl
    | ⟨1, _⟩ => rfl)

theorem row_bcast1 (b : FVec Ideal S1x1 .f32) (p : Fin 5000) :
    broadcastTo S5000x1 b broadcasts_S1x1_S5000x1 (ix2 p 0) = b (ix2 0 0) :=
  broadcastTo_apply b broadcasts_S1x1_S5000x1 (ix2 p 0) (ix2 0 0) (fun a => by
    match a with
    | ⟨0, _⟩ => rfl
    | ⟨1, _⟩ => rfl)

/-- The logistic, lane by lane. -/
theorem logistic_apply {s : Shape} (x : FVec Ideal s .f32) (i : s.Idx) : logistic x i = Ideal.logistic (x i) := rfl

/-- THE HIDDEN LAYER AT (p, q): the second mean-aggregation layer's row p, through the 64×32 weights, the bias, relu. -/
theorem hidden_apply (a : Vec Ideal S5000x64 .f32) (s : Vec Ideal S5000x1 .f32) (h : Vec Ideal S5000x64 .f32)
    (wl wr : Vec Ideal S64x64 .f32) (b : Vec Ideal S1x64 .f32) (wf1 : Vec Ideal S64x32 .f32) (bf1 : Vec Ideal S1x32 .f32)
    (p : Fin 5000) (q : Fin 32) :
    k1_pay2 (F := Ideal) a s h wl wr b wf1 bf1 (ix2 p q)
      = max ((∑ j : Fin 64,
                max (((∑ k : Fin 64, (a (ix2 p k) * s (ix2 p 0)) * wl (ix2 k j)) + b (ix2 0 j))
                      + ∑ k : Fin 64, h (ix2 p k) * wr (ix2 k j)) 0 * wf1 (ix2 j q)) + bf1 (ix2 0 q)) 0 := by
  unfold k1_pay2
  simp only [shapeCast_self, matmul, dot64, dot32]
  simp only [truncf_apply, maximumf_apply, addf_apply, mulf_apply, Cert.Matmul.matmul_plain_apply, col_bcast, row_bcast64,
    row_bcast32, broadcast_apply, Ideal.ofBits_def, Ideal.ofBits_zero_f32]

/-- The last weights pass through unchanged. -/
theorem wf2_apply (w : Vec Ideal S32x1 .f32) (i : S32x1.Idx) : k1_pay3 (F := Ideal) w i = w i := rfl

/-- THE STORED VALUE AT ROW p: the logit over the hidden layer, through the logistic. -/
theorem out_apply (u : FVec Ideal S5000x32 .bf16) (w : FVec Ideal S32x1 .bf16) (b : Vec Ideal S1x1 .f32) (p : Fin 5000) :
    k1_pay1 (F := Ideal) u w b (ix2 p 0) = Ideal.logistic ((∑ q : Fin 32, u (ix2 p q) * w (ix2 q 0)) + b (ix2 0 0)) := by
  unfold k1_pay1
  simp only [shapeCast_self, matmul, dot1]
  rw [logistic_apply, addf_apply, Cert.Matmul.matmul_plain_apply, row_bcast1]

/-! ## Blocks of the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-tiled windows and the output sit at block row t, block
    column 0; every weight and bias is one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Row p of block t is row t · 5000 + p of the array. -/
def row (t : Fin cfg1.N) (p : Fin 5000) : Fin 100000 :=
  ⟨t.val * 5000 + p.val, by have ht : t.val < 20 := t.isLt; have hp := p.isLt; omega⟩

/-! Each window's block at point t, read at block coordinates, is the array at row t · 5000 + p (the row-tiled
    operands) or at the same entry (the weights and the biases). -/

theorem blk_agg (c : Dev nD) (t : Fin cfg1.N) (p : Fin 5000) (k : Fin 64) :
    iblk1 V c 0 t (ix2 p k) = V c main_v33 (ix2 (row t p) k) := by
  obtain ⟨e00, e01, e10, e11, e20, e21, e30, e31, e40, e41, e50, e51, e60, e61, e70, e71, e80, e81, e90, e91, ea0, ea1⟩ := idx_facts t
  show V c main_v33 (((cfg1.win 0).blk t).view.emb (ix2 p k)) = V c main_v33 (ix2 (row t p) k)
  refine congrArg (V c main_v33) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

theorem blk_inv (c : Dev nD) (t : Fin cfg1.N) (p : Fin 5000) :
    iblk1 V c 1 t (ix2 p 0) = V c main_v11 (ix2 (row t p) 0) := by
  obtain ⟨e00, e01, e10, e11, e20, e21, e30, e31, e40, e41, e50, e51, e60, e61, e70, e71, e80, e81, e90, e91, ea0, ea1⟩ := idx_facts t
  show V c main_v11 (((cfg1.win 1).blk t).view.emb (ix2 p 0)) = V c main_v11 (ix2 (row t p) 0)
  refine congrArg (V c main_v11) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

theorem blk_h (c : Dev nD) (t : Fin cfg1.N) (p : Fin 5000) (k : Fin 64) :
    iblk1 V c 2 t (ix2 p k) = V c main_v23 (ix2 (row t p) k) := by
  obtain ⟨e00, e01, e10, e11, e20, e21, e30, e31, e40, e41, e50, e51, e60, e61, e70, e71, e80, e81, e90, e91, ea0, ea1⟩ := idx_facts t
  show V c main_v23 (((cfg1.win 2).blk t).view.emb (ix2 p k)) = V c main_v23 (ix2 (row t p) k)
  refine congrArg (V c main_v23) (funext fun a => Fin.ext ?_)
  match a with
  | ⟨0, _⟩ => show win1_2.index t (0 : Fin 2) * 5000 + 1 * p.val = t.val * 5000 + p.val; omega
  | ⟨1, _⟩ => show win1_2.index t (1 : Fin 2) * 64 + 1 * k.val = k.val; omega

theorem blk_wl (c : Dev nD) (t : Fin cfg1.N) (k : Fin 64) (q : Fin 64) :
    iblk1 V c 3 t (ix2 k q) = V c main_arg5 (ix2 k q) := by
  obtain ⟨e00, e01, e10, e11, e20, e21, e30, e31, e40, e41, e50, e51, e60, e61, e70, e71, e80, e81, e90, e91, ea0, ea1⟩ := idx_facts t
  show V c main_arg5 (((cfg1.win 3).blk t).view.emb (ix2 k q)) = V c main_arg5 (ix2 k q)
  refine congrArg (V c main_arg5) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

theorem blk_b (c : Dev nD) (t : Fin cfg1.N) (q : Fin 64) :
    iblk1 V c 4 t (ix2 0 q) = V c main_v34 (ix2 0 q) := by
  obtain ⟨e00, e01, e10, e11, e20, e21, e30, e31, e40, e41, e50, e51, e60, e61, e70, e71, e80, e81, e90, e91, ea0, ea1⟩ := idx_facts t
  show V c main_v34 (((cfg1.win 4).blk t).view.emb (ix2 0 q)) = V c main_v34 (ix2 0 q)
  refine congrArg (V c main_v34) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

theorem blk_wr (c : Dev nD) (t : Fin cfg1.N) (k : Fin 64) (q : Fin 64) :
    iblk1 V c 5 t (ix2 k q) = V c main_arg7 (ix2 k q) := by
  obtain ⟨e00, e01, e10, e11, e20, e21, e30, e31, e40, e41, e50, e51, e60, e61, e70, e71, e80, e81, e90, e91, ea0, ea1⟩ := idx_facts t
  show V c main_arg7 (((cfg1.win 5).blk t).view.emb (ix2 k q)) = V c main_arg7 (ix2 k q)
  refine congrArg (V c main_arg7) (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

theorem blk_wf1 (c : Dev nD) (t : Fin cfg1.N) (k : Fin 64) (q : Fin 32) :
    iblk1 V c 6 t (ix2 k q) = V c main_arg8 (ix2 k q) := by
  obtain ⟨e00, e01, e10, e11, e20, e21, e30, e31, e40, e41, e50, e51, e60, e61, e70, e71, e80, e81, e90, e91, ea0, ea1⟩ := idx_facts t
  show V c main_arg8 (((cfg1.win 6).blk t).view.emb (ix2 k q)) = V c main_arg8 (ix2 k q)
  refine congrArg (V c main_arg8) (funext fun a => Fin.ext ?_)
  match a with
  | ⟨0, _⟩ => show win1_6.index t (0 : Fin 2) * 64 + 1 * k.val = k.val; omega
  | ⟨1, _⟩ => show win1_6.index t (1 : Fin 2) * 32 + 1 * q.val = q.val; omega

theorem blk_bf1 (c : Dev nD) (t : Fin cfg1.N) (q : Fin 32) :
    iblk1 V c 7 t (ix2 0 q) = V c main_v35 (ix2 0 q) := by
  obtain ⟨e00, e01, e10, e11, e20, e21, e30, e31, e40, e41, e50, e51, e60, e61, e70, e71, e80, e81, e90, e91, ea0, ea1⟩ := idx_facts t
  show V c main_v35 (((cfg1.win 7).blk t).view.emb (ix2 0 q)) = V c main_v35 (ix2 0 q)
  refine congrArg (V c main_v35) (funext fun a => Fin.ext ?_)
  match a with
  | ⟨0, _⟩ => show win1_7.index t (0 : Fin 2) * 1 + 1 * 0 = 0; omega
  | ⟨1, _⟩ => show win1_7.index t (1 : Fin 2) * 32 + 1 * q.val = q.val; omega

theorem blk_wf2 (c : Dev nD) (t : Fin cfg1.N) (k : Fin 32) :
    iblk1 V c 8 t (ix2 k 0) = V c main_arg10 (ix2 k 0) := by
  obtain ⟨e00, e01, e10, e11, e20, e21, e30, e31, e40, e41, e50, e51, e60, e61, e70, e71, e80, e81, e90, e91, ea0, ea1⟩ := idx_facts t
  show V c main_arg10 (((cfg1.win 8).blk t).view.emb (ix2 k 0)) = V c main_arg10 (ix2 k 0)
  refine congrArg (V c main_arg10) (funext fun a => Fin.ext ?_)
  match a with
  | ⟨0, _⟩ => show win1_8.index t (0 : Fin 2) * 32 + 1 * k.val = k.val; omega
  | ⟨1, _⟩ => show win1_8.index t (1 : Fin 2) * 1 + 1 * 0 = 0; omega

theorem blk_bf2 (c : Dev nD) (t : Fin cfg1.N) :
    iblk1 V c 9 t (ix2 0 0) = V c main_v36 (ix2 0 0) := by
  obtain ⟨e00, e01, e10, e11, e20, e21, e30, e31, e40, e41, e50, e51, e60, e61, e70, e71, e80, e81, e90, e91, ea0, ea1⟩ := idx_facts t
  show V c main_v36 (((cfg1.win 9).blk t).view.emb (ix2 0 0)) = V c main_v36 (ix2 0 0)
  refine congrArg (V c main_v36) (funext fun a => Fin.ext ?_)
  match a with
  | ⟨0, _⟩ => show win1_9.index t (0 : Fin 2) * 1 + 1 * 0 = 0; omega
  | ⟨1, _⟩ => show win1_9.index t (1 : Fin 2) * 1 + 1 * 0 = 0; omega

/-- Where the output block's entry (p, 0) lands in the array. -/
theorem emb_out (t : Fin cfg1.N) (p : Fin 5000) :
    ((cfg1.win 10).blk t).view.emb (ix2 p 0) = ix2 (row t p) 0 := by
  obtain ⟨e00, e01, e10, e11, e20, e21, e30, e31, e40, e41, e50, e51, e60, e61, e70, e71, e80, e81, e90, e91, ea0, ea1⟩ := idx_facts t
  refine funext fun a => Fin.ext ?_
  match a with
  | ⟨0, _⟩ => show win1_10.index t (0 : Fin 2) * 5000 + 1 * p.val = t.val * 5000 + p.val; omega
  | ⟨1, _⟩ => show win1_10.index t (1 : Fin 2) * 1 + 1 * 0 = 0; omega

/-- The head over the arrays as the region finds them. -/
abbrev G (c : Dev nD) : Net.Arr 100000 1 :=
  Net.head (V c main_v33) (V c main_v11) (V c main_v23) (V c main_arg5) (V c main_v34) (V c main_arg7) (V c main_arg8)
    (V c main_v35) (V c main_arg10) (V c main_v36)

/-- WHAT POINT t WRITES BACK is block t of the head's array. -/
theorem flushed_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  unfold out1_10
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x32) hz, View.ld_unit_zero (S := S1x32) hz,
    View.ld_unit_zero (S := S32x1) hz, View.ld_unit_zero (S := S1x1) hz]
  funext j
  obtain ⟨p, q, rfl⟩ : ∃ (p : Fin 5000) (q : Fin 1), j = ix2 p q := ⟨j 0, j 1, eq_ix2 j⟩
  obtain rfl : q = 0 := Subsingleton.elim _ _
  refine (out_apply (k1_pay2 (iblk1 V c 0 t) (iblk1 V c 1 t) (iblk1 V c 2 t) (iblk1 V c 3 t) (iblk1 V c 5 t) (iblk1 V c 4 t)
    (iblk1 V c 6 t) (iblk1 V c 7 t)) (k1_pay3 (iblk1 V c 8 t)) (iblk1 V c 9 t) p).trans ?_
  simp only [hidden_apply, wf2_apply, blk_agg, blk_inv, blk_h, blk_wl, blk_b, blk_wr, blk_wf1, blk_bf1, blk_wf2, blk_bf2]
  show _ = G V c (((cfg1.win 10).blk t).view.emb (ix2 p 0))
  rw [emb_out]
  rfl

/-- An index is in point t's output block iff each coordinate is in the block's range. -/
theorem mem_blk (t : Fin cfg1.N) (i : S100000x1.Idx) :
    i ∈ ((cfg1.win 10).blk t).view.set ↔ ∀ a : Fin 2, win1_10.index t a * S5000x1.size a ≤ (i a).val ∧ (i a).val < win1_10.index t a * S5000x1.size a + S5000x1.size a := by
  show i ∈ ((View.whole main_v37).slice (win1_10.rect t)).set ↔ _
  rw [View.set_slice_whole, Rect.mem_set_unit]
  exact Iff.rfl

/-- Every row lies in the block of the point r / 5000. -/
theorem cover (i : S100000x1.Idx) : ∃ t : Fin cfg1.N, (cfg1.win 10).flush t = true ∧ i ∈ ((cfg1.win 10).blk t).view.set := by
  have hi0 : (i 0).val < 100000 := (i 0).isLt
  have hi1 : (i 1).val < 1 := (i 1).isLt
  have ht : (i 0).val / 5000 < 20 := by omega
  obtain ⟨e00, e01, e10, e11, e20, e21, e30, e31, e40, e41, e50, e51, e60, e61, e70, e71, e80, e81, e90, e91, ea0, ea1⟩ := idx_facts ⟨(i 0).val / 5000, ht⟩
  refine ⟨⟨(i 0).val / 5000, ht⟩, flush1_10 _, ?_⟩
  rw [mem_blk]
  intro a
  have ea0' : win1_10.index ⟨(i 0).val / 5000, ht⟩ (0 : Fin 2) = (i 0).val / 5000 := ea0
  match a with
  | ⟨0, _⟩ => show win1_10.index ⟨(i 0).val / 5000, ht⟩ (0 : Fin 2) * 5000 ≤ (i 0).val ∧ (i 0).val < win1_10.index ⟨(i 0).val / 5000, ht⟩ (0 : Fin 2) * 5000 + 5000; omega
  | ⟨1, _⟩ => show win1_10.index ⟨(i 0).val / 5000, ht⟩ (1 : Fin 2) * 1 ≤ (i 1).val ∧ (i 1).val < win1_10.index ⟨(i 0).val / 5000, ht⟩ (1 : Fin 2) * 1 + 1; omega

/-- THE SECOND REGION'S OUTPUT ARRAY after its run: the head of the arrays as the region finds them. -/
theorem out_array (c : Dev nD) : (dat1 V c).arrAt 10 cfg1.N = G V c :=
  (dat1 V c).arrAt_eq_of_cover 10 (G V c) (fun t _ => flushed_eq V c t) (fun i => cover i)

end Cert.KernelIdeal.Head

end
-- ==== Proof.HostChain.lean ====
/-
  The graph side of the network, as functions of the edge list.

  Row 0 of the 2 × 1600000 edge list holds each edge's source node, row 1 its destination. A negative source index is
  wrapped by adding the node count. The neighbour sum of a feature array x gathers x at the (wrapped) sources and adds
  each gathered row into its edge's destination row; the neighbour count does the same with a column of ones; the
  per-row scale is 1 / max(count, 1). Both programs apply exactly these operations, so they are carried here as named
  functions and never opened: all the certificate needs of them is that the scale IS that quotient, entry by entry, and
  that the clamped count is never zero (Spec).

  A bias vector of length n enters a kernel region as a 1 × n array; read at (0, j) that array is the vector's entry j.
-/
import proofs.«132148_j58016418234844_1_alg».proof.Proof.Gen.KernelIdeal
import proofs.«132148_j58016418234844_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Chain

open Cert.KernelIdeal Cert.KernelIdeal.Gen Idealize.ShloMosaic Idealize.ShloMosaic.ValueIdx

/-- The edges' source nodes (row 0 of the edge list). -/
def srcOf (e : IVec S2x1600000 32) : IVec S1600000 32 :=
  shapeCast S1600000 (extractStridedSlice S1x1600000 ![0, 0] e slices_S2x1600000_S1x1600000_0_0) shapeCasts_S1x1600000_S1600000

/-- The edges' destination nodes (row 1 of the edge list). -/
def dstOf (e : IVec S2x1600000 32) : IVec S1600000 32 :=
  shapeCast S1600000 (extractStridedSlice S1x1600000 ![1, 0] e slices_S2x1600000_S1x1600000_1_0) shapeCasts_S1x1600000_S1600000

/-- A negative index wrapped by the node count. -/
def wrapOf (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- An index vector as a one-column index array. -/
def colOf (v : IVec S1600000 32) : IVec S1600000x1 32 := broadcastInDim S1600000x1 ![0] bcast_S1600000_S1600000x1_0 v

/-- THE NEIGHBOUR SUM of a feature array: gathered at the sources, added into the destinations. Kept closed: the
    certificate uses it only as a function applied to equal arguments (it is a sum over 1600000 edges). -/
@[irreducible] def aggOf (x : FVec Ideal S100000x64 .f32) (e : IVec S2x1600000 32) : FVec Ideal S100000x64 .f32 :=
  Host.scatterAdd scatter_S100000x64_S1600000x1_S1600000x64_1_0_0_1
    (broadcastInDim S100000x64 ![] bcast_S_S100000x64 (constant S_ .f32 0x00000000#32)) (colOf (dstOf e))
    (Host.gather gather_S100000x64_S1600000x1_S1600000x64_1_0_n_n_0_1_164 x (colOf (wrapOf (srcOf e))))

/-- THE NEIGHBOUR COUNT: a column of ones added into the destinations. -/
@[irreducible] def cntOf (e : IVec S2x1600000 32) : FVec Ideal S100000x1 .f32 :=
  Host.scatterAdd scatter_S100000x1_S1600000x1_S1600000x1_1_0_0_1
    (broadcastInDim S100000x1 ![] bcast_S_S100000x1 (constant S_ .f32 0x00000000#32)) (colOf (dstOf e))
    (broadcastInDim S1600000x1 ![] bcast_S_S1600000x1 (constant S_ .f32 0x3F800000#32))

/-- The column of ones. -/
def ones : FVec Ideal S100000x1 .f32 := broadcastInDim S100000x1 ![] bcast_S_S100000x1 (constant S_ .f32 0x3F800000#32)

/-- THE PER-ROW SCALE: one over the clamped count. -/
def invOf (e : IVec S2x1600000 32) : FVec Ideal S100000x1 .f32 := Host.divf ones (maximumf (cntOf e) ones)

theorem ones_apply (i : S100000x1.Idx) : ones i = 1 := by
  unfold ones
  rw [broadcastInDim_scalar_apply, constant_apply, Ideal.ofBits_one_f32]

/-- The scale, entry by entry. -/
theorem invOf_eq (e : IVec S2x1600000 32) : invOf e = fun i => Ideal.div 1 (max (cntOf e i) 1) := by
  funext i
  unfold invOf
  rw [hostDivf_apply, maximumf_apply, ones_apply]

/-- A bias vector as a one-row array (lengths 64, 32, 1). -/
def biasRow64 (b : FVec Ideal S64 .f32) : FVec Ideal S1x64 .f32 := shapeCast S1x64 b shapeCasts_S64_S1x64
def biasRow32 (b : FVec Ideal S32 .f32) : FVec Ideal S1x32 .f32 := shapeCast S1x32 b shapeCasts_S32_S1x32
def biasRow1 (b : FVec Ideal S1 .f32) : FVec Ideal S1x1 .f32 := shapeCast S1x1 b shapeCasts_S1_S1x1

theorem biasRow64_apply (b : FVec Ideal S64 .f32) (j : Fin 64) : biasRow64 b (ix2 0 j) = b (ix1 j) :=
  shapeCast_apply b shapeCasts_S64_S1x64 (ix2 0 j) (ix1 j) (by
    rw [Shape.rowMajor_val_one, Shape.rowMajor_val_two]; show j.val = 0 * 64 + j.val; omega)

theorem biasRow32_apply (b : FVec Ideal S32 .f32) (j : Fin 32) : biasRow32 b (ix2 0 j) = b (ix1 j) :=
  shapeCast_apply b shapeCasts_S32_S1x32 (ix2 0 j) (ix1 j) (by
    rw [Shape.rowMajor_val_one, Shape.rowMajor_val_two]; show j.val = 0 * 32 + j.val; omega)

theorem biasRow1_apply (b : FVec Ideal S1 .f32) : biasRow1 b (ix2 0 0) = b (ix1 0) :=
  shapeCast_apply b shapeCasts_S1_S1x1 (ix2 0 0) (ix1 0) (by
    rw [Shape.rowMajor_val_one, Shape.rowMajor_val_two]; show 0 = 0 * 1 + 0; omega)

/-- THE WHOLE NETWORK as one function of the twelve arguments: the first layer over the node features, the head over
    the first layer's output, both with the same scale. -/
def net (x : FVec Ideal S100000x64 .f32) (e : IVec S2x1600000 32) (W1l : FVec Ideal S64x64 .f32) (b1l : FVec Ideal S64 .f32)
    (W1r W2l : FVec Ideal S64x64 .f32) (b2l : FVec Ideal S64 .f32) (W2r : FVec Ideal S64x64 .f32)
    (Wf1 : FVec Ideal S64x32 .f32) (bf1 : FVec Ideal S32 .f32) (Wf2 : FVec Ideal S32x1 .f32) (bf2 : FVec Ideal S1 .f32) :
    FVec Ideal S100000x1 .f32 :=
  Net.head (aggOf (Net.sage (aggOf x e) (invOf e) x W1l (biasRow64 b1l) W1r) e) (invOf e)
    (Net.sage (aggOf x e) (invOf e) x W1l (biasRow64 b1l) W1r) W2l (biasRow64 b2l) W2r Wf1 (biasRow32 bf1) Wf2 (biasRow1 bf2)

end Cert.KernelIdeal.Chain

end
-- ==== Proof.KernelValue.lean ====
/-
  The kernel's result as a function of its twelve arguments.

  @main runs a stretch of host operations, the first region, a second stretch and the second region. The stretches are
  read operation by operation: the first computes, from the edge list and the node features, the neighbour sum, the
  per-row scale and the first bias as a row; the second computes the neighbour sum of whatever the first region left,
  over the same edge list, and the three remaining biases as rows. A region's output array is the layer (resp. the
  head) of the arrays it finds (Layer1, Head); an input array of a region, and any buffer a region or a stretch does
  not write, keeps its contents. Composing the four: the result array is the head over the first layer's output, which
  is the network (HostChain's net) of the launch contents of the arguments.
-/
import proofs.«132148_j58016418234844_1_alg».proof.Proof.KernelRun
import proofs.«132148_j58016418234844_1_alg».proof.Proof.Layer1
import proofs.«132148_j58016418234844_1_alg».proof.Proof.Head
import proofs.«132148_j58016418234844_1_alg».proof.Proof.HostChain
import Idealize.ShloMosaic.Lib.StableHlo.Run

set_option maxRecDepth 16384

noncomputable section

namespace Cert.KernelIdeal.KernelValue

open Cert.KernelIdeal Cert.KernelIdeal.Gen Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch of host operations, from the launch memory -/

set_option maxHeartbeats 4000000 in
theorem e1_src (c : Dev nD) : W1 m ρ c (Proc.devRef .tc main_v1) = srcOf (m ((c : Thread nD τ).loc main_arg1)) := by
  show StableHlo.after hostOps0 (W0 m ρ c) (Proc.devRef .tc main_v1) = _
  after_results_simp
  rfl

set_option maxHeartbeats 4000000 in
theorem e1_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

set_option maxHeartbeats 4000000 in
theorem e1_inv (c : Dev nD) : W1 m ρ c (Proc.devRef .tc main_v11) = invOf (m ((c : Thread nD τ).loc main_arg1)) := by
  show StableHlo.after hostOps0 (W0 m ρ c) (Proc.devRef .tc main_v11) = _
  after_results_simp
  unfold invOf cntOf
  rfl

set_option maxHeartbeats 4000000 in
theorem e1_agg (c : Dev nD) : W1 m ρ c (Proc.devRef .tc main_v21)
    = aggOf (m ((c : Thread nD τ).loc main_arg0)) (m ((c : Thread nD τ).loc main_arg1)) := by
  show StableHlo.after hostOps0 (W0 m ρ c) (Proc.devRef .tc main_v21) = _
  after_results_simp
  unfold aggOf
  rfl

set_option maxHeartbeats 4000000 in
theorem e1_b (c : Dev nD) : W1 m ρ c (Proc.devRef .tc main_v22) = biasRow64 (m ((c : Thread nD τ).loc main_arg3)) := by
  show StableHlo.after hostOps0 (W0 m ρ c) (Proc.devRef .tc main_v22) = _
  after_results_simp
  rfl

set_option maxHeartbeats 4000000 in
theorem e1_x (c : Dev nD) : W1 m ρ c (Proc.devRef .tc main_arg0) = m ((c : Thread nD τ).loc main_arg0) := by
  show StableHlo.after hostOps0 (W0 m ρ c) (Proc.devRef .tc main_arg0) = _
  after_results_simp

set_option maxHeartbeats 4000000 in
theorem e1_W1l (c : Dev nD) : W1 m ρ c (Proc.devRef .tc main_arg2) = m ((c : Thread nD τ).loc main_arg2) := by
  show StableHlo.after hostOps0 (W0 m ρ c) (Proc.devRef .tc main_arg2) = _
  after_results_simp

set_option maxHeartbeats 4000000 in
theorem e1_W1r (c : Dev nD) : W1 m ρ c (Proc.devRef .tc main_arg4) = m ((c : Thread nD τ).loc main_arg4) := by
  show StableHlo.after hostOps0 (W0 m ρ c) (Proc.devRef .tc main_arg4) = _
  after_results_simp

set_option maxHeartbeats 4000000 in
theorem e1_W2l (c : Dev nD) : W1 m ρ c (Proc.devRef .tc main_arg5) = m ((c : Thread nD τ).loc main_arg5) := by
  show StableHlo.after hostOps0 (W0 m ρ c) (Proc.devRef .tc main_arg5) = _
  after_results_simp

set_option maxHeartbeats 4000000 in
theorem e1_b2l (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 4000000 in
theorem e1_W2r (c : Dev nD) : W1 m ρ c (Proc.devRef .tc main_arg7) = m ((c : Thread nD τ).loc main_arg7) := by
  show StableHlo.after hostOps0 (W0 m ρ c) (Proc.devRef .tc main_arg7) = _
  after_results_simp

set_option maxHeartbeats 4000000 in
theorem e1_Wf1 (c : Dev nD) : W1 m ρ c (Proc.devRef .tc main_arg8) = m ((c : Thread nD τ).loc main_arg8) := by
  show StableHlo.after hostOps0 (W0 m ρ c) (Proc.devRef .tc main_arg8) = _
  after_results_simp

set_option maxHeartbeats 4000000 in
theorem e1_bf1 (c : Dev nD) : W1 m ρ c (Proc.devRef .tc main_arg9) = m ((c : Thread nD τ).loc main_arg9) := by
  show StableHlo.after hostOps0 (W0 m ρ c) (Proc.devRef .tc main_arg9) = _
  after_results_simp

set_option maxHeartbeats 4000000 in
theorem e1_Wf2 (c : Dev nD) : W1 m ρ c (Proc.devRef .tc main_arg10) = m ((c : Thread nD τ).loc main_arg10) := by
  show StableHlo.after hostOps0 (W0 m ρ c) (Proc.devRef .tc main_arg10) = _
  after_results_simp

set_option maxHeartbeats 4000000 in
theorem e1_bf2 (c : Dev nD) : W1 m ρ c (Proc.devRef .tc main_arg11) = m ((c : Thread nD τ).loc main_arg11) := by
  show StableHlo.after hostOps0 (W0 m ρ c) (Proc.devRef .tc main_arg11) = _
  after_results_simp

/-! ## The second stretch of host operations, from any contents W -/

section Second
variable (W : Valuation τ sig (Elt Ideal))

/-- The neighbour sum of whatever the first region left, over the same edge list. -/
theorem s1_agg (e : IVec S2x1600000 32) (h1 : W (Proc.devRef .tc main_v1) = srcOf e) (h3 : W (Proc.devRef .tc main_v3) = dstOf e) :
    StableHlo.after hostOps1 W (Proc.devRef .tc main_v33) = aggOf (W (Proc.devRef .tc main_v23)) e := by
  after_results_simp
  rw [h1, h3]
  unfold aggOf
  rfl

theorem s1_b2 : StableHlo.after hostOps1 W (Proc.devRef .tc main_v34) = biasRow64 (W (Proc.devRef .tc main_arg6)) := by
  after_results_simp
  rfl

theorem s1_bf1 : StableHlo.after hostOps1 W (Proc.devRef .tc main_v35) = biasRow32 (W (Proc.devRef .tc main_arg9)) := by
  after_results_simp
  rfl

theorem s1_bf2 : StableHlo.after hostOps1 W (Proc.devRef .tc main_v36) = biasRow1 (W (Proc.devRef .tc main_arg11)) := by
  after_results_simp
  rfl

theorem s1_inv : StableHlo.after hostOps1 W (Proc.devRef .tc main_v11) = W (Proc.devRef .tc main_v11) := by
  after_results_simp

theorem s1_h : StableHlo.after hostOps1 W (Proc.devRef .tc main_v23) = W (Proc.devRef .tc main_v23) := by
  after_results_simp

theorem s1_W2l : StableHlo.after hostOps1 W (Proc.devRef .tc main_arg5) = W (Proc.devRef .tc main_arg5) := by
  after_results_simp

theorem s1_W2r : StableHlo.after hostOps1 W (Proc.devRef .tc main_arg7) = W (Proc.devRef .tc main_arg7) := by
  after_results_simp

theorem s1_Wf1 : StableHlo.after hostOps1 W (Proc.devRef .tc main_arg8) = W (Proc.devRef .tc main_arg8) := by
  after_results_simp

theorem s1_Wf2 : StableHlo.after hostOps1 W (Proc.devRef .tc main_arg10) = W (Proc.devRef .tc main_arg10) := by
  after_results_simp

end Second

/-! ## The contents between the regions -/

/-- What the first region leaves in its output array: the first layer of the arguments. -/
theorem mid_h (c : Dev nD) : W2 m ρ c (Proc.devRef .tc main_v23)
    = Net.sage (aggOf (m ((c : Thread nD τ).loc main_arg0)) (m ((c : Thread nD τ).loc main_arg1)))
        (invOf (m ((c : Thread nD τ).loc main_arg1))) (m ((c : Thread nD τ).loc main_arg0)) (m ((c : Thread nD τ).loc main_arg2))
        (biasRow64 (m ((c : Thread nD τ).loc main_arg3))) (m ((c : Thread nD τ).loc main_arg4)) := by
  refine (W2_arr m ρ c 6).trans ?_
  rw [Layer1.out_array]
  show Net.sage (W1 m ρ c (Proc.devRef .tc main_v21)) (W1 m ρ c (Proc.devRef .tc main_v11)) (W1 m ρ c (Proc.devRef .tc main_arg0))
    (W1 m ρ c (Proc.devRef .tc main_arg2)) (W1 m ρ c (Proc.devRef .tc main_v22)) (W1 m ρ c (Proc.devRef .tc main_arg4)) = _
  rw [e1_agg, e1_inv, e1_x, e1_W1l, e1_b, e1_W1r]

/-- The scale is an input of the first region: its array leaves the region as it entered. -/
theorem mid_inv (c : Dev nD) : W2 m ρ c (Proc.devRef .tc main_v11) = invOf (m ((c : Thread nD τ).loc main_arg1)) :=
  ((W2_arr m ρ c 1).trans (((dat0 (V1 m ρ) c).arrAt_in 1 rfl _).trans (A_eq0 (V1 m ρ) c 1))).trans (e1_inv m ρ c)

/-- An argument's buffer at the first region's exit is as launched. -/
theorem mid_arg (c : Dev nD) (b : Ref sig .tc) (hb : ∀ w, Pipeline.arrRef spec0 w ≠ b)
    (h1 : W1 m ρ c (Proc.devRef .tc b) = m ((c : Thread nD τ).loc b)) :
    W2 m ρ c (Proc.devRef .tc b) = m ((c : Thread nD τ).loc b) :=
  (W2_of_ne m ρ c b hb).trans h1

/-- THE KERNEL'S RESULT ARRAY is the network of the twelve arguments. -/
theorem result_value (c : Dev nD) :
    W4 m ρ c (Proc.devRef .tc main_v37)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (RunValue.result_eq m ρ c).trans ?_
  rw [Head.out_array]
  show Net.head (StableHlo.after hostOps1 (W2 m ρ c) (Proc.devRef .tc main_v33)) (StableHlo.after hostOps1 (W2 m ρ c) (Proc.devRef .tc main_v11))
    (StableHlo.after hostOps1 (W2 m ρ c) (Proc.devRef .tc main_v23)) (StableHlo.after hostOps1 (W2 m ρ c) (Proc.devRef .tc main_arg5))
    (StableHlo.after hostOps1 (W2 m ρ c) (Proc.devRef .tc main_v34)) (StableHlo.after hostOps1 (W2 m ρ c) (Proc.devRef .tc main_arg7))
    (StableHlo.after hostOps1 (W2 m ρ c) (Proc.devRef .tc main_arg8)) (StableHlo.after hostOps1 (W2 m ρ c) (Proc.devRef .tc main_v35))
    (StableHlo.after hostOps1 (W2 m ρ c) (Proc.devRef .tc main_arg10)) (StableHlo.after hostOps1 (W2 m ρ c) (Proc.devRef .tc main_v36)) = _
  rw [s1_agg (W2 m ρ c) (m ((c : Thread nD τ).loc main_arg1))
        ((W2_of_ne m ρ c main_v1 (by decide)).trans (e1_src m ρ c)) ((W2_of_ne m ρ c main_v3 (by decide)).trans (e1_dst m ρ c)),
    s1_inv, s1_h, s1_W2l, s1_b2, s1_W2r, s1_Wf1, s1_bf1, s1_Wf2, s1_bf2, mid_h,
    mid_inv,
    mid_arg m ρ c main_arg5 (by decide) (e1_W2l m ρ c), mid_arg m ρ c main_arg6 (by decide) (e1_b2l m ρ c),
    mid_arg m ρ c main_arg7 (by decide) (e1_W2r m ρ c), mid_arg m ρ c main_arg8 (by decide) (e1_Wf1 m ρ c),
    mid_arg m ρ c main_arg9 (by decide) (e1_bf1 m ρ c), mid_arg m ρ c main_arg10 (by decide) (e1_Wf2 m ρ c),
    mid_arg m ρ c main_arg11 (by decide) (e1_bf2 m ρ c)]
  rfl

end Cert.KernelIdeal.KernelValue

end
-- ==== Proof.RefValue.lean ====
/-
  The reference's result as a function of its twelve arguments.

  The reference is one straight line of host operations. Read at row r (and feature j) through its stages: the mean
  is the neighbour sum divided by the clamped neighbour count, broadcast along the row; each dot_general is its plain
  sum over the contracted axis; a bias vector broadcast to the rows reads its entry j; relu is the maximum with zero;
  the last four operations spell the logistic  1 / (1 + e^(-z)). The two scatter-adds of each layer (neighbour sum and
  count) and the gathers feeding them are the same operations of the same arguments as the kernel's host side applies
  (HostChain), so they are carried as unknowns A, N, agg and never opened: with them fixed, the reference's first layer
  is the layer of Spec with the scale spelt  1 / max(N, 1)  — the one law, a · (1 / c) = a / c for c = max(N, 1) ≠ 0 —
  and its result is the head of Spec over that layer. That is the network (HostChain's net).
-/
import proofs.«132148_j58016418234844_1_alg».proof.Proof.Gen.ReferenceIdeal.Read
import proofs.«132148_j58016418234844_1_alg».proof.Proof.HostChain
import proofs.«132148_j58016418234844_1_alg».proof.Proof.Spec
import Idealize.ShloMosaic.Lib.IdealHost

set_option maxRecDepth 16384

noncomputable section

namespace Cert.ReferenceIdeal.RefValue

open Cert.ReferenceIdeal Cert.ReferenceIdeal.Read Idealize.ShloMosaic Idealize.ShloMosaic.ValueIdx

/-! ## The reference's scatter-adds are the named chain's: the same operations of the same arguments -/

theorem agg1_eq (x0 : FVec Ideal S100000x64 .f32) (x1 : IVec S2x1600000 32) :
    val_main_v13 (F := Ideal) x0 x1 = Cert.KernelIdeal.Chain.aggOf x0 x1 := by
  unfold Cert.KernelIdeal.Chain.aggOf; rfl

theorem cnt1_eq (x1 : IVec S2x1600000 32) : val_main_v17 (F := Ideal) x1 = Cert.KernelIdeal.Chain.cntOf x1 := by
  unfold Cert.KernelIdeal.Chain.cntOf; rfl

theorem cnt2_eq (x1 : IVec S2x1600000 32) : val_main_v42 (F := Ideal) x1 = Cert.KernelIdeal.Chain.cntOf x1 := by
  unfold Cert.KernelIdeal.Chain.cntOf; rfl

theorem agg2_eq (x0 : FVec Ideal S100000x64 .f32) (x1 : IVec S2x1600000 32) (x2 : FVec Ideal S64x64 .f32) (x3 : FVec Ideal S64 .f32)
    (x4 : FVec Ideal S64x64 .f32) :
    val_main_v38 (F := Ideal) x0 x1 x2 x3 x4 = Cert.KernelIdeal.Chain.aggOf (val_main_v28 (F := Ideal) x0 x1 x2 x3 x4) x1 := by
  unfold Cert.KernelIdeal.Chain.aggOf; rfl

/-! ## The reference's index functions at a row r (and a feature j, a hidden unit q) -/

theorem lidx22 (r : Fin 100000) (j k : Fin 64) : lidx_main_v22 (ix2 r j) k = ix2 r k :=
  funext fun a => Fin.ext (by match a with | ⟨0, _⟩ => rfl | ⟨1, _⟩ => rfl)
theorem ridx22 (r : Fin 100000) (j k : Fin 64) : ridx_main_v22 (ix2 r j) k = ix2 k j :=
  funext fun a => Fin.ext (by match a with | ⟨0, _⟩ => rfl | ⟨1, _⟩ => rfl)
theorem lidx26 (r : Fin 100000) (j k : Fin 64) : lidx_main_v26 (ix2 r j) k = ix2 r k :=
  funext fun a => Fin.ext (by match a with | ⟨0, _⟩ => rfl | ⟨1, _⟩ => rfl)
theorem ridx26 (r : Fin 100000) (j k : Fin 64) : ridx_main_v26 (ix2 r j) k = ix2 k j :=
  funext fun a => Fin.ext (by match a with | ⟨0, _⟩ => rfl | ⟨1, _⟩ => rfl)
theorem idx20 (r : Fin 100000) (k : Fin 64) : idx_main_v20 (ix2 r k) = ix2 r 0 :=
  funext fun a => Fin.ext (by match a with | ⟨0, _⟩ => rfl | ⟨1, _⟩ => rfl)
theorem idx2324 (r : Fin 100000) (j : Fin 64) : idx_main_v23 (idx_main_v24 (ix2 r j)) = ix1 j :=
  funext fun a => Fin.ext (by match a with | ⟨0, _⟩ => rfl)
theorem lidx47 (r : Fin 100000) (j k : Fin 64) : lidx_main_v47 (ix2 r j) k = ix2 r k :=
  funext fun a => Fin.ext (by match a with | ⟨0, _⟩ => rfl | ⟨1, _⟩ => rfl)
theorem ridx47 (r : Fin 100000) (j k : Fin 64) : ridx_main_v47 (ix2 r j) k = ix2 k j :=
  funext fun a => Fin.ext (by match a with | ⟨0, _⟩ => rfl | ⟨1, _⟩ => rfl)
theorem lidx51 (r : Fin 100000) (j k : Fin 64) : lidx_main_v51 (ix2 r j) k = ix2 r k :=
  funext fun a => Fin.ext (by match a with | ⟨0, _⟩ => rfl | ⟨1, _⟩ => rfl)
theorem ridx51 (r : Fin 100000) (j k : Fin 64) : ridx_main_v51 (ix2 r j) k = ix2 k j :=
  funext fun a => Fin.ext (by match a with | ⟨0, _⟩ => rfl | ⟨1, _⟩ => rfl)
theorem idx45 (r : Fin 100000) (k : Fin 64) : idx_main_v45 (ix2 r k) = ix2 r 0 :=
  funext fun a => Fin.ext (by match a with | ⟨0, _⟩ => rfl | ⟨1, _⟩ => rfl)
theorem idx4849 (r : Fin 100000) (j : Fin 64) : idx_main_v48 (idx_main_v49 (ix2 r j)) = ix1 j :=
  funext fun a => Fin.ext (by match a with | ⟨0, _⟩ => rfl)
theorem lidx54 (r : Fin 100000) (q : Fin 32) (j : Fin 64) : lidx_main_v54 (ix2 r q) j = ix2 r j :=
  funext fun a => Fin.ext (by match a with | ⟨0, _⟩ => rfl | ⟨1, _⟩ => rfl)
theorem ridx54 (r : Fin 100000) (q : Fin 32) (j : Fin 64) : ridx_main_v54 (ix2 r q) j = ix2 j q :=
  funext fun a => Fin.ext (by match a with | ⟨0, _⟩ => rfl | ⟨1, _⟩ => rfl)
theorem idx5556 (r : Fin 100000) (q : Fin 32) : idx_main_v55 (idx_main_v56 (ix2 r q)) = ix1 q :=
  funext fun a => Fin.ext (by match a with | ⟨0, _⟩ => rfl)
theorem lidx59 (r : Fin 100000) (q : Fin 32) : lidx_main_v59 (ix2 r 0) q = ix2 r q :=
  funext fun a => Fin.ext (by match a with | ⟨0, _⟩ => rfl | ⟨1, _⟩ => rfl)
theorem ridx59 (r : Fin 100000) (q : Fin 32) : ridx_main_v59 (ix2 r 0) q = ix2 q 0 :=
  funext fun a => Fin.ext (by match a with | ⟨0, _⟩ => rfl | ⟨1, _⟩ => rfl)
theorem idx6061 (r : Fin 100000) : idx_main_v60 (idx_main_v61 (ix2 r 0)) = ix1 0 :=
  funext fun a => Fin.ext (by match a with | ⟨0, _⟩ => rfl)

/-! ## The first layer -/

/-- The reference's first layer over ANY neighbour sum A and count N standing for its two scatter-adds. -/
theorem layer1_gen (x0 : FVec Ideal S100000x64 .f32) (x1 : IVec S2x1600000 32) (x2 : FVec Ideal S64x64 .f32) (x3 : FVec Ideal S64 .f32)
    (x4 : FVec Ideal S64x64 .f32) (A : FVec Ideal S100000x64 .f32) (N : FVec Ideal S100000x1 .f32)
    (hA : val_main_v13 (F := Ideal) x0 x1 = A) (hN : val_main_v17 (F := Ideal) x1 = N) :
    val_main_v28 (F := Ideal) x0 x1 x2 x3 x4
      = Net.sage A (fun i => Ideal.div 1 (max (N i) 1)) x0 x2 (Cert.KernelIdeal.Chain.biasRow64 x3) x4 := by
  funext i
  obtain ⟨r, j, rfl⟩ : ∃ (r : Fin 100000) (j : Fin 64), i = ix2 r j := ⟨i 0, i 1, eq_ix2 i⟩
  show _ = Net.sageAt A (fun i => Ideal.div 1 (max (N i) 1)) x0 x2 (Cert.KernelIdeal.Chain.biasRow64 x3) x4 r j
  rw [Net.sageAt_recip, Cert.KernelIdeal.Chain.biasRow64_apply]
  rw [val_main_v28_apply, val_main_v27_apply, val_main_v25_apply, val_main_v22_apply, val_main_v26_apply, val_main_v24_apply,
    val_main_v23_apply, val_main_call0_v0_apply, val_main_call0_cst_apply]
  -- the mean's entry (r, k): the neighbour sum over the clamped count of row r
  have mean : ∀ k : Fin 64, val_main_v21 (F := Ideal) x0 x1 (lidx_main_v22 (ix2 r j) k)
      = Ideal.div (A (ix2 r k)) (max (N (ix2 r 0)) 1) := by
    intro k
    rw [lidx22, val_main_v21_apply, val_main_v20_apply, idx20, val_main_v19_apply, val_main_v18_apply, val_main_cst_3_apply, hA, hN]
    show Ideal.div (A (ix2 r k)) (max (N (ix2 r 0)) (Ideal.ofBits .f32 0x3F800000#32)) = _
    rw [Ideal.ofBits_one_f32]
  show max (((∑ k : Fin 64, val_main_v21 (F := Ideal) x0 x1 (lidx_main_v22 (ix2 r j) k) * x2 (ridx_main_v22 (ix2 r j) k))
      + x3 (idx_main_v23 (idx_main_v24 (ix2 r j)))) + ∑ k : Fin 64, x0 (lidx_main_v26 (ix2 r j) k) * x4 (ridx_main_v26 (ix2 r j) k))
    (Ideal.ofBits .f32 0x00000000#32) = _
  rw [Ideal.ofBits_zero_f32, idx2324]
  refine congrArg (fun t => max t (0 : EReal)) ?_
  refine congrArg₂ (· + ·) (congrArg₂ (· + ·) (Finset.sum_congr rfl fun k _ => ?_) rfl) (Finset.sum_congr rfl fun k _ => ?_)
  · rw [mean k, ridx22]
  · rw [lidx26, ridx26]

/-! ## The second layer and the head -/

/-- The head of Spec at row r, spelt out, with the scale as the quotient by the clamped count and the biases read
    off their rows. -/
theorem head_spelt (A2 H : Net.Arr 100000 64) (N : Net.Arr 100000 1) (x5 : Net.Arr 64 64) (x6 : FVec Ideal S64 .f32)
    (x7 : Net.Arr 64 64) (x8 : Net.Arr 64 32) (x9 : FVec Ideal S32 .f32) (x10 : Net.Arr 32 1) (x11 : FVec Ideal S1 .f32)
    (r : Fin 100000) :
    Net.headAt A2 (fun i => Ideal.div 1 (max (N i) 1)) H x5 (Cert.KernelIdeal.Chain.biasRow64 x6) x7 x8
        (Cert.KernelIdeal.Chain.biasRow32 x9) x10 (Cert.KernelIdeal.Chain.biasRow1 x11) r
      = Ideal.div 1 (1 + Ideal.exp (-((∑ q : Fin 32,
          max ((∑ j : Fin 64,
                  max (((∑ k : Fin 64, Ideal.div (A2 (ix2 r k)) (max (N (ix2 r 0)) 1) * x5 (ix2 k j)) + x6 (ix1 j))
                        + ∑ k : Fin 64, H (ix2 r k) * x7 (ix2 k j)) 0 * x8 (ix2 j q)) + x9 (ix1 q)) 0 * x10 (ix2 q 0))
          + x11 (ix1 0)))) := by
  simp only [Net.headAt, Net.mlpAt, Net.sageAt, Net.mul_recip_clamp, Ideal.logistic, Cert.KernelIdeal.Chain.biasRow64_apply,
    Cert.KernelIdeal.Chain.biasRow32_apply, Cert.KernelIdeal.Chain.biasRow1_apply]

set_option maxHeartbeats 1000000 in
/-- The reference's second layer and head over ANY first-layer output H, neighbour sum A2 of it and count N. -/
theorem head_gen (x0 : FVec Ideal S100000x64 .f32) (x1 : IVec S2x1600000 32) (x2 : FVec Ideal S64x64 .f32) (x3 : FVec Ideal S64 .f32) (x4 x5 : FVec Ideal S64x64 .f32) (x6 : FVec Ideal S64 .f32) (x7 : FVec Ideal S64x64 .f32) (x8 : FVec Ideal S64x32 .f32) (x9 : FVec Ideal S32 .f32) (x10 : FVec Ideal S32x1 .f32) (x11 : FVec Ideal S1 .f32)
    (H A2 : FVec Ideal S100000x64 .f32) (N : FVec Ideal S100000x1 .f32)
    (hH : val_main_v28 (F := Ideal) x0 x1 x2 x3 x4 = H) (hA : val_main_v38 (F := Ideal) x0 x1 x2 x3 x4 = A2)
    (hN : val_main_v42 (F := Ideal) x1 = N) :
    val_main_v68 (F := Ideal) x0 x1 x2 x3 x4 x5 x6 x7 x8 x9 x10 x11
      = Net.head A2 (fun i => Ideal.div 1 (max (N i) 1)) H x5 (Cert.KernelIdeal.Chain.biasRow64 x6) x7 x8
          (Cert.KernelIdeal.Chain.biasRow32 x9) x10 (Cert.KernelIdeal.Chain.biasRow1 x11) := by
  funext i
  obtain ⟨r, q, rfl⟩ : ∃ (r : Fin 100000) (q : Fin 1), i = ix2 r q := ⟨i 0, i 1, eq_ix2 i⟩
  obtain rfl : q = 0 := Subsingleton.elim _ _
  show _ = Net.headAt A2 (fun i => Ideal.div 1 (max (N i) 1)) H x5 (Cert.KernelIdeal.Chain.biasRow64 x6) x7 x8
          (Cert.KernelIdeal.Chain.biasRow32 x9) x10 (Cert.KernelIdeal.Chain.biasRow1 x11) r
  rw [head_spelt]
  -- the second layer at (r, j)
  have lay2 : ∀ j : Fin 64, val_main_v53 (F := Ideal) x0 x1 x2 x3 x4 x5 x6 x7 (ix2 r j)
      = max (((∑ k : Fin 64, Ideal.div (A2 (ix2 r k)) (max (N (ix2 r 0)) 1) * x5 (ix2 k j)) + x6 (ix1 j))
              + ∑ k : Fin 64, H (ix2 r k) * x7 (ix2 k j)) 0 := by
    intro j
    rw [val_main_v53_apply, val_main_call1_v0_apply, val_main_call1_cst_apply, val_main_v52_apply, val_main_v50_apply,
      val_main_v47_apply, val_main_v49_apply, val_main_v48_apply, idx4849, val_main_v51_apply,
      Ideal.maximumf_def, Ideal.addf_def, Ideal.addf_def, Ideal.ofBits_def, Ideal.ofBits_zero_f32]
    refine congrArg (fun t => max t (0 : EReal)) ?_
    refine congrArg₂ (· + ·) (congrArg₂ (· + ·) (Finset.sum_congr rfl fun k _ => ?_) rfl) (Finset.sum_congr rfl fun k _ => ?_)
    · rw [lidx47, ridx47, val_main_v46_apply, val_main_v45_apply, idx45, val_main_v44_apply, val_main_v43_apply,
        val_main_cst_9_apply, hA, hN, Ideal.hostDivf_def, Ideal.maximumf_def, Ideal.ofBits_def, Ideal.ofBits_one_f32]
    · rw [lidx51, ridx51, hH]
  -- the hidden unit q at row r
  have hid : ∀ q : Fin 32, val_main_v58 (F := Ideal) x0 x1 x2 x3 x4 x5 x6 x7 x8 x9 (lidx_main_v59 (ix2 r 0) q)
      = max ((∑ j : Fin 64,
                max (((∑ k : Fin 64, Ideal.div (A2 (ix2 r k)) (max (N (ix2 r 0)) 1) * x5 (ix2 k j)) + x6 (ix1 j))
                      + ∑ k : Fin 64, H (ix2 r k) * x7 (ix2 k j)) 0 * x8 (ix2 j q)) + x9 (ix1 q)) 0 := by
    intro q
    rw [lidx59, val_main_v58_apply, val_main_call2_v0_apply, val_main_call2_cst_apply, val_main_v57_apply, val_main_v54_apply,
      val_main_v56_apply, val_main_v55_apply, idx5556, Ideal.maximumf_def, Ideal.addf_def, Ideal.ofBits_def, Ideal.ofBits_zero_f32]
    refine congrArg (fun t => max t (0 : EReal)) (congrArg₂ (· + ·) (Finset.sum_congr rfl fun j _ => ?_) rfl)
    rw [lidx54, ridx54, lay2 j]
  -- the logit and the logistic
  rw [val_main_v68_apply, val_main_v67_apply, val_main_cst_11_apply, val_main_v66_apply, val_main_v65_apply, val_main_cst_10_apply,
    val_main_v64_apply, val_main_v63_apply, val_main_v62_apply, val_main_v59_apply, val_main_v61_apply, val_main_v60_apply, idx6061,
    Ideal.hostDivf_def, Ideal.addf_def, Ideal.hostUnary_exp_def, Ideal.hostNegf_def, Ideal.negf_def, Ideal.addf_def,
    Ideal.ofBits_def, Ideal.ofBits_one_f32]
  refine congrArg (fun t => Ideal.div 1 (1 + Ideal.exp (-(t + x11 (ix1 0))))) (Finset.sum_congr rfl fun q _ => ?_)
  rw [hid q, ridx59]

/-! ## The whole reference -/

/-- The reference over ANY neighbour-sum operator agg and count N standing for its scatter-adds: the head over the first
    layer's output. -/
theorem ref_gen (x0 : FVec Ideal S100000x64 .f32) (x1 : IVec S2x1600000 32) (x2 : FVec Ideal S64x64 .f32) (x3 : FVec Ideal S64 .f32) (x4 x5 : FVec Ideal S64x64 .f32) (x6 : FVec Ideal S64 .f32) (x7 : FVec Ideal S64x64 .f32) (x8 : FVec Ideal S64x32 .f32) (x9 : FVec Ideal S32 .f32) (x10 : FVec Ideal S32x1 .f32) (x11 : FVec Ideal S1 .f32)
    (agg : FVec Ideal S100000x64 .f32 → FVec Ideal S100000x64 .f32) (N : FVec Ideal S100000x1 .f32)
    (h13 : val_main_v13 (F := Ideal) x0 x1 = agg x0) (h17 : val_main_v17 (F := Ideal) x1 = N) (h42 : val_main_v42 (F := Ideal) x1 = N)
    (h38 : val_main_v38 (F := Ideal) x0 x1 x2 x3 x4 = agg (val_main_v28 (F := Ideal) x0 x1 x2 x3 x4)) :
    val_main_v68 (F := Ideal) x0 x1 x2 x3 x4 x5 x6 x7 x8 x9 x10 x11
      = Net.head (agg (Net.sage (agg x0) (fun i => Ideal.div 1 (max (N i) 1)) x0 x2 (Cert.KernelIdeal.Chain.biasRow64 x3) x4))
          (fun i => Ideal.div 1 (max (N i) 1))
          (Net.sage (agg x0) (fun i => Ideal.div 1 (max (N i) 1)) x0 x2 (Cert.KernelIdeal.Chain.biasRow64 x3) x4)
          x5 (Cert.KernelIdeal.Chain.biasRow64 x6) x7 x8 (Cert.KernelIdeal.Chain.biasRow32 x9) x10 (Cert.KernelIdeal.Chain.biasRow1 x11) :=
  have hH := layer1_gen x0 x1 x2 x3 x4 (agg x0) N h13 h17
  head_gen x0 x1 x2 x3 x4 x5 x6 x7 x8 x9 x10 x11 _ _ N hH (h38.trans (congrArg agg hH)) h42

/-- THE REFERENCE'S RESULT ARRAY is the network of the twelve arguments. -/
theorem ref_value (x0 : FVec Ideal S100000x64 .f32) (x1 : IVec S2x1600000 32) (x2 : FVec Ideal S64x64 .f32) (x3 : FVec Ideal S64 .f32) (x4 x5 : FVec Ideal S64x64 .f32) (x6 : FVec Ideal S64 .f32) (x7 : FVec Ideal S64x64 .f32) (x8 : FVec Ideal S64x32 .f32) (x9 : FVec Ideal S32 .f32) (x10 : FVec Ideal S32x1 .f32) (x11 : FVec Ideal S1 .f32) :
    val_main_v68 (F := Ideal) x0 x1 x2 x3 x4 x5 x6 x7 x8 x9 x10 x11 = Cert.KernelIdeal.Chain.net x0 x1 x2 x3 x4 x5 x6 x7 x8 x9 x10 x11 := by
  unfold Cert.KernelIdeal.Chain.net
  rw [Cert.KernelIdeal.Chain.invOf_eq]
  exact ref_gen x0 x1 x2 x3 x4 x5 x6 x7 x8 x9 x10 x11 (fun h => Cert.KernelIdeal.Chain.aggOf h x1) (Cert.KernelIdeal.Chain.cntOf x1)
    (agg1_eq x0 x1) (cnt1_eq x1) (cnt2_eq x1) (agg2_eq x0 x1 x2 x3 x4)

end Cert.ReferenceIdeal.RefValue

end
-- ==== Proof.lean ====
/-
  Two mean-aggregation graph layers and a two-layer head, as two tiled kernel regions among host gathers and
  scatter-adds, against the same network written as one line of whole-array host operations.

  Over the extended reals both programs compute, at node r,
      h1(r,·) = relu( mean1(r,·) W1l + b1l + x(r,·) W1r ),   h2(r,·) = relu( mean2(r,·) W2l + b2l + h1(r,·) W2r ),
      out(r)  = logistic( relu( h2(r,·) Wf1 + bf1 ) Wf2 + bf2 ),
  where mean_i(r,·) is the sum of the neighbours' features of r (of x, then of h1) over max(n(r), 1), n(r) the number
  of edges into r. The kernel's host side forms the reciprocal s(r) = 1 / max(n(r), 1) once and its regions multiply by
  it; the reference divides. Since max(n, 1) ≥ 1 is never zero, a · (1 / c) = a / c holds for every extended real a, the
  infinities included, so finiteness of the inputs is never used. Everything else is the same sums in the same order:
  a rounding to the narrow float format is the identity here, a matrix product into a zero accumulator and the host's
  dot_general are the same plain sum, the kernel's one logistic operation is by definition the expression
  1 / (1 + e^(-z)) the reference spells, and the gathers and scatter-adds are the very same host operations on both
  sides, carried as one named function (HostChain) and never opened.

  The modules: Spec (the layer and the head at a row; the law), HostChain (the graph side as named functions; the
  network net of the twelve arguments), Layer1 and Head (each region's output array is the layer, resp. the head, of
  the arrays it finds: blocks of 5000 rows tiling 100000), KernelRun (the launch, keeping the result buffer),
  KernelValue (the kernel's result is net of its arguments), RefValue (so is the reference's). The three frames are the
  generated ones; the ideal pass changed nothing, so there is nothing to preserve.
-/
import proofs.«132148_j58016418234844_1_alg».proof.Defs
import proofs.«132148_j58016418234844_1_alg».proof.Proof.Gen.Kernel
import proofs.«132148_j58016418234844_1_alg».proof.Proof.Gen.Kernel.Skeleton
import proofs.«132148_j58016418234844_1_alg».proof.Proof.Gen.Kernel.Launch
import proofs.«132148_j58016418234844_1_alg».proof.Proof.Gen.Kernel.Points
import proofs.«132148_j58016418234844_1_alg».proof.Proof.Gen.Kernel.Frame
import proofs.«132148_j58016418234844_1_alg».proof.Proof.Gen.KernelIdeal
import proofs.«132148_j58016418234844_1_alg».proof.Proof.Gen.KernelIdeal.Skeleton
import proofs.«132148_j58016418234844_1_alg».proof.Proof.Gen.KernelIdeal.Launch
import proofs.«132148_j58016418234844_1_alg».proof.Proof.Gen.KernelIdeal.Points
import proofs.«132148_j58016418234844_1_alg».proof.Proof.Gen.KernelIdeal.Frame
import proofs.«132148_j58016418234844_1_alg».proof.Proof.Gen.ReferenceIdeal
import proofs.«132148_j58016418234844_1_alg».proof.Proof.Gen.ReferenceIdeal.Run
import proofs.«132148_j58016418234844_1_alg».proof.Proof.Gen.ReferenceIdeal.Read
import proofs.«132148_j58016418234844_1_alg».proof.Proof.Gen.Pre_finite_inputs
import proofs.«132148_j58016418234844_1_alg».proof.Proof.KernelValue
import proofs.«132148_j58016418234844_1_alg».proof.Proof.RefValue
import Idealize.ShloMosaic.Adequacy
import Idealize.ShloMosaic.Init

noncomputable section

namespace Cert.Proof

open Idealize.ShloMosaic Idealize.SL.Sem

/-- The word-level kernel's frame: generated whole. -/
theorem frame_k : Cert.frame_Kernel := fun m ρ _ => Cert.Kernel.Gen.frame m ρ

/-- The idealized kernel's frame: generated whole. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs, run from memories agreeing on the arguments, end with the network of those arguments. -/
theorem algebraic : Cert.algebraic_KernelIdeal_ReferenceIdeal := by
  intro m ρ m' ρ' _ hagree
  refine ⟨fun c => Cert.KernelIdeal.Chain.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelValue.result_value m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v68_eq, Cert.ReferenceIdeal.RefValue.ref_value, h0, h1, h2, h3, h4, h5, h6, h7, h8, h9,
      h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
